-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S256x8192 : Shape := ⟨2, ![256, 8192]⟩
abbrev S8192x8192 : Shape := ⟨2, ![8192, 8192]⟩
abbrev S4096x256 : Shape := ⟨2, ![4096, 256]⟩
abbrev S256x512 : Shape := ⟨2, ![256, 512]⟩
abbrev S4096x512 : Shape := ⟨2, ![4096, 512]⟩
abbrev S4096 : Shape := ⟨1, ![4096]⟩
abbrev S4096x1 : Shape := ⟨2, ![4096, 1]⟩
abbrev S512 : Shape := ⟨1, ![512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x8192, .f32⟩
  | .hbm, ⟨3, _⟩ => ⟨S8192x8192, .f32⟩
  | .local _ .vmem, ⟨0, _⟩ => ⟨S4096x256, .f32⟩
  | .local _ .vmem, ⟨1, _⟩ => ⟨S4096x256, .f32⟩
  | .local _ .vmem, ⟨2, _⟩ => ⟨S256x512, .f32⟩
  | .local _ .vmem, ⟨3, _⟩ => ⟨S256x512, .f32⟩
  | .local _ .vmem, ⟨4, _⟩ => ⟨S4096x512, .f32⟩
  | .local _ .vmem, ⟨5, _⟩ => ⟨S4096x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8192x256_S256x8192_1_0 : S8192x256.Transposes [1, 0] S256x8192
  inb_S4096x256_S4096x256_0_0 : ∀ a, (![0, 0] : Fin 2 → Nat) a + S4096x256.size a ≤ S4096x256.size a
  h_S4096x256 : 0 < S4096x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S4096x256_S4096 : S4096x256.Reduces [1] S4096
  shapeCasts_S4096_S4096x1 : S4096.ShapeCasts S4096x1
  reduces_S256x512_S512 : S256x512.Reduces [0] S512
  shapeCasts_S512_S1x512 : S512.ShapeCasts S1x512
  bitsLt_bf16_f32 : FTy.bits .bf16 < FTy.bits .f32
  broadcasts_S4096x1_S4096x512 : S4096x1.Broadcasts S4096x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S8192x256.size a
  hwx0_0 : ∀ i : grid0.Coords, EltTy.bits .f32 = 32 ∨ (Rect.block (s := S8192x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x8192.size a
  hwx0_1 : ∀ i : grid0.Coords, EltTy.bits .f32 = 32 ∨ (Rect.block (s := S256x8192) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S8192x8192.size a
  hwx0_2 : ∀ i : grid0.Coords, EltTy.bits .f32 = 32 ∨ (Rect.block (s := S8192x8192) S4096x512.size (cc0_transform_2 i) (hinb0_2 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.LibColumnSums.lean ====
/-
  Sums down the columns of a matrix, read at a column.

  The sum of an [n, b] matrix along its FIRST axis, read at column c, is the finite sum over the rows k of the entry (k, c).
-/
import Idealize.ShloMosaic.Lib.ValueIdx
import Idealize.ShloMosaic.PureOps.Ideal.Laws

noncomputable section

namespace Cert.ColumnSums

open Idealize.ShloMosaic Idealize.ShloMosaic.ValueIdx
open scoped BigOperators

/-- The sum of an `[n, b]` matrix of extended reals along its first axis, started from the zero word and read at column
    `c`, is `∑ₖ v(k, c)`. -/
theorem multiReduction_add_col {n b : ℕ} (v : FVec Ideal ⟨2, ![n, b]⟩ .f32)
    (h : (⟨2, ![n, b]⟩ : Shape).Reduces [0] ⟨1, ![b]⟩) (hφ : FKind.Formats .f32)
    (hacc : (0x00000000#32 : BitVec 32) = 0x00000000#32) (c : Fin b) :
    multiReduction .add [0] ⟨1, ![b]⟩ v 0x00000000#32 h hφ hacc (ix1 c) = ∑ k : Fin n, v (ix2 k c) := by
  refine (Ideal.multiReduction_add_single v 0x00000000#32 h hφ hacc (ix1 c)).trans ?_
  refine Finset.sum_congr rfl fun k _ => ?_
  exact congrArg v (funext fun ax => Fin.ext (by match ax with | ⟨0, _⟩ => rfl | ⟨1, _⟩ => rfl))

end Cert.ColumnSums

end
-- ==== Proof.Payload.lean ====
/-
  The kernel body's stored value, read entry by entry. Over one block of 4096 rows of x and one block of 512 columns of the
  transposed y, the entry (p, q) is the sum of the squares along row p of the x block, plus the sum of the squares down column
  q of the transposed block, minus 2.0 times the matrix product's entry (p, q), which is the sum over k of the x block at
  (p, k) times the transposed block at (k, q). The narrowing of the product's operands to a shorter float format changes
  nothing on the extended reals.
-/
import proofs.«170404_j68959994905236_1_alg».proof.Proof.Gen.KernelIdeal.Skeleton
import proofs.«170404_j68959994905236_1_alg».proof.Proof.LibColumns
import proofs.«170404_j68959994905236_1_alg».proof.Proof.LibColumnSums
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx
open scoped BigOperators

/-! ## The matrix product at an entry -/

theorem lhs_cross_0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
theorem lhs_cross_1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q
theorem rhs_cross_0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q
theorem rhs_cross_1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-- The product of a [4096, 256] block with a [256, 512] block, accumulated from zero, at (p, q): the sum over the
    shared axis of the entries' products. -/
theorem cross_apply {φ₁ φ₂ : FTy} (a : FVec Ideal S4096x256 φ₁) (b : FVec Ideal S256x512 φ₂) (p : Fin 4096) (q : Fin 512) :
    matmul dot_S4096x256_S256x512_S4096x512_1_0_0_1_n_n none a b (constant S4096x512 .f32 0x00000000#32) (ix2 p q)
      = ∑ k : Fin 256, a (ix2 p k) * b (ix2 k q) := by
  simp only [matmul]
  rw [Ideal.matmul_constant_zero_apply, ← Equiv.sum_comp (contrEquiv1 dot_S4096x256_S256x512_S4096x512_1_0_0_1_n_n 256 rfl rfl).symm]
  refine Finset.sum_congr rfl fun k _ => ?_
  have hk := contrEquiv1_symm_val dot_S4096x256_S256x512_S4096x512_1_0_0_1_n_n 256 rfl rfl k
  have el : dot_S4096x256_S256x512_S4096x512_1_0_0_1_n_n.lhsIdx (ix2 p q) ((contrEquiv1 dot_S4096x256_S256x512_S4096x512_1_0_0_1_n_n 256 rfl rfl).symm k) = ix2 p k := funext fun ax => Fin.ext (by
    match ax with
    | ⟨0, _⟩ => exact lhs_cross_0 _ _
    | ⟨1, _⟩ => exact (lhs_cross_1 _ _).trans hk)
  have er : dot_S4096x256_S256x512_S4096x512_1_0_0_1_n_n.rhsIdx (ix2 p q) ((contrEquiv1 dot_S4096x256_S256x512_S4096x512_1_0_0_1_n_n 256 rfl rfl).symm k) = ix2 k q := funext fun ax => Fin.ext (by
    match ax with
    | ⟨0, _⟩ => exact (rhs_cross_0 _ _).trans hk
    | ⟨1, _⟩ => exact rhs_cross_1 _ _)
  rw [el, er]

/-! ## The stored value at an entry -/

/-- Entry (p, q) of what the body stores, from the x block `x0` and the transposed y block `x1`. -/
theorem payload_apply (x0 : Vec Ideal S4096x256 .f32) (x1 : Vec Ideal S256x512 .f32) (p : Fin 4096) (q : Fin 512) :
    k0_pay1 (F := Ideal) x0 x1 (ix2 p q)
      = (∑ k : Fin 256, x0 (ix2 p k) * x0 (ix2 p k) + ∑ k : Fin 256, x1 (ix2 k q) * x1 (ix2 k q))
          - Ideal.ofBits .f32 0x40000000#32 * ∑ k : Fin 256, x0 (ix2 p k) * x1 (ix2 k q) := by
  unfold k0_pay1
  rw [subf_apply, addf_apply, mulf_apply, broadcast_apply,
    Cert.Columns.broadcastTo_a1_ab_apply, Cert.Columns.shapeCast_a_a1_apply, Cert.Columns.multiReduction_add_row,
    broadcastTo_1b_ab_apply, shapeCast_a_1a_apply, Cert.ColumnSums.multiReduction_add_col, cross_apply]
  simp only [mulf_apply, truncf_apply, shapeCast_self, Ideal.ofBits_def]

end Cert.KernelIdeal.Payload

end
-- ==== Proof.Spec.lean ====
/-
  Pairwise squared Euclidean distances between the rows of two matrices, through the expansion
  |x_r - y_s|² = |x_r|² + |y_s|² - 2 ⟨x_r, y_s⟩: the entry (r, s) of the result is the sum of the squares of row r of x, plus
  the sum of the squares of row s of y, minus twice the inner product of the two rows. Every sum runs over the 256
  columns, on the extended reals; "twice" is the product with the float 2.0, kept as its word.
-/
import Idealize.ShloMosaic.Lib.ValueIdx
import Idealize.ShloMosaic.PureOps.Ideal.Laws

noncomputable section

namespace Cert.SqDist

open Idealize.ShloMosaic Idealize.ShloMosaic.ValueIdx
open scoped BigOperators

/-- The entry at row `r` of `x` and row `s` of `y`. -/
def sqdistAt (x y : FVec Ideal ⟨2, ![8192, 256]⟩ .f32) (r s : Fin 8192) : EReal :=
  (∑ k : Fin 256, x (ix2 r k) * x (ix2 r k) + ∑ k : Fin 256, y (ix2 s k) * y (ix2 s k))
    - Ideal.ofBits .f32 0x40000000#32 * ∑ k : Fin 256, x (ix2 r k) * y (ix2 s k)

/-- The whole [8192, 8192] table of squared distances. -/
def sqdist (x y : FVec Ideal ⟨2, ![8192, 256]⟩ .f32) : FVec Ideal ⟨2, ![8192, 8192]⟩ .f32 :=
  fun i => sqdistAt x y (i 0) (i 1)

theorem sqdist_ix2 (x y : FVec Ideal ⟨2, ![8192, 256]⟩ .f32) (r s : Fin 8192) :
    sqdist x y (ix2 r s) = sqdistAt x y r s := rfl

end Cert.SqDist

end
-- ==== Proof.KernelValue.lean ====
/-
  The kernel's result array. The grid has 2 × 16 points; point t = (a, b) reads rows 4096a … 4096a + 4095 of x (all 256
  columns) and columns 512b … 512b + 511 of the transposed y (all 256 rows), and writes the [4096, 512] block (a, b) of the
  result. An entry (k, s) of the transposed y is the entry (s, k) of y, so what the body stores at (p, q) of its block is the
  squared distance between row 4096a + p of x and row 512b + q of y: block (a, b) of the whole table. The 32 blocks tile
  the [8192, 8192] result, so the array ends holding the table.
-/
import proofs.«170404_j68959994905236_1_alg».proof.Proof.Gen.KernelIdeal.Value
import proofs.«170404_j68959994905236_1_alg».proof.Proof.Payload
import proofs.«170404_j68959994905236_1_alg».proof.Proof.Spec
import Idealize.ShloMosaic.Lib.Pipeline.Value
import Idealize.ShloMosaic.Lib.ValueLayout
import Idealize.ShloMosaic.Lib.StableHlo.Run

noncomputable section

namespace Cert.KernelIdeal.Table

open Cert.KernelIdeal Cert.KernelIdeal.Gen Cert.KernelIdeal.Value Cert.KernelIdeal.Payload
open Idealize.ShloMosaic Idealize.ShloMosaic.TcCoe Idealize.SL.Sem Idealize.ShloMosaic.ValueIdx
open Idealize.ShloMosaic.Pipeline (Dat)
open Cert.SqDist
open scoped BigOperators

variable (m : (ℓ : Loc nD τ sig) → Buf (Elt Ideal) ℓ) (ρ : Dev nD → PrngReg)

/-- The two argument arrays on core `c`, as launched. -/
abbrev xarr (c : Dev nD) : FVec Ideal S8192x256 .f32 := m ((c : Thread nD τ).loc main_arg0)
abbrev yarr (c : Dev nD) : FVec Ideal S8192x256 .f32 := m ((c : Thread nD τ).loc main_arg1)

theorem hz : (![0, 0] : Fin 2 → Nat) = fun _ => 0 := funext fun a => by fin_cases a <;> rfl

/-! ## One block's entries from the whole arrays -/

/-- If the x block holds rows `4096 b0 + p` of `X` and the transposed block holds, at (k, q), the entry (512 b1 + q, k) of
    `Y`, then the stored value at a block index is the table's entry at the array index that block index lands on. -/
theorem block_entry (x0 : Vec Ideal S4096x256 .f32) (x1 : Vec Ideal S256x512 .f32) (X Y : FVec Ideal S8192x256 .f32)
    (b0 b1 : ℕ) (hb0 : b0 < 2) (hb1 : b1 < 16)
    (h0 : ∀ (p : Fin 4096) (k : Fin 256), x0 (ix2 p k) = X (ix2 (⟨b0 * 4096 + p.val, by omega⟩ : Fin 8192) k))
    (h1 : ∀ (k : Fin 256) (q : Fin 512), x1 (ix2 k q) = Y (ix2 (⟨b1 * 512 + q.val, by omega⟩ : Fin 8192) k))
    (jb : S4096x512.Idx) (ia : S8192x8192.Idx)
    (hi0 : (ia 0).val = b0 * 4096 + (jb 0).val) (hi1 : (ia 1).val = b1 * 512 + (jb 1).val) :
    k0_pay1 (F := Ideal) x0 x1 jb = sqdist X Y ia := by
  obtain ⟨p, q, rfl⟩ : ∃ (p : Fin 4096) (q : Fin 512), jb = ix2 p q := ⟨jb 0, jb 1, eq_ix2 jb⟩
  obtain ⟨r, s, rfl⟩ : ∃ (r s : Fin 8192), ia = ix2 r s := ⟨ia 0, ia 1, eq_ix2 ia⟩
  have hr : r = (⟨b0 * 4096 + p.val, by have := p.isLt; omega⟩ : Fin 8192) := Fin.ext hi0
  have hs : s = (⟨b1 * 512 + q.val, by have := q.isLt; omega⟩ : Fin 8192) := Fin.ext hi1
  rw [hr, hs, payload_apply, sqdist_ix2]
  unfold sqdistAt
  simp only [h0, h1]

/-! ## The arrays the region finds, and the grid's index maps -/

/-- The region finds the transposed `y` in its second operand: the one host operation before it. -/
theorem V_transposed (c : Dev nD) :
    (V m c main_v0 : S256x8192.Idx → EReal) = transpose S256x8192 [1, 0] (yarr m c) transposes_S8192x256_S256x8192_1_0 := by
  dsimp only [Gen.V, Gen.hostOps0]; after_results

/-- The printed index maps over the 32 points: the x window follows the output's row block and the transposed window its
    column block; the output's block indices are below 2 and below 16. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) < 2 ∧ win0_2.index t (1 : Fin 2) < 16 :=
  (by decide +kernel : ∀ t : Fin grid0.N, _)

/-- Every block (a, b) of the result is some point's. -/
theorem idx_onto : ∀ (a : Fin 2) (b : Fin 16), ∃ t : Fin cfg0.N, win0_2.index t = ![a.val, b.val] :=
  (by decide +kernel : ∀ (a : Fin 2) (b : Fin 16), ∃ t : Fin grid0.N, win0_2.index t = ![a.val, b.val])

/-- The x window's block at point `t`: rows of `x` from 4096 times the block index. -/
theorem xblock_apply (c : Dev nD) (t : Fin cfg0.N) (p : Fin 4096) (k : Fin 256) (r : Fin 8192)
    (hr : r.val = win0_0.index t (0 : Fin 2) * 4096 + p.val) (h1 : win0_0.index t (1 : Fin 2) = 0) :
    (iblk m c 0 t : Vec Ideal S4096x256 .f32) (ix2 p k) = xarr m c (ix2 r k) := by
  show V m c main_arg0 (((cfg0.win 0).blk t).view.emb (ix2 p k)) = _
  rw [V_main_arg0]
  refine congrArg (xarr m c) (funext fun a => Fin.ext ?_)
  match a with
  | ⟨0, _⟩ => show win0_0.index t (0 : Fin 2) * 4096 + 1 * p.val = r.val; omega
  | ⟨1, _⟩ => show win0_0.index t (1 : Fin 2) * 256 + 1 * k.val = k.val; omega

/-- The transposed window's block at point `t`: at (k, q), the entry of `y` at row 512 times the block index plus q,
    column k. -/
theorem yblock_apply (c : Dev nD) (t : Fin cfg0.N) (k : Fin 256) (q : Fin 512) (s : Fin 8192)
    (h0 : win0_1.index t (0 : Fin 2) = 0) (hs : s.val = win0_1.index t (1 : Fin 2) * 512 + q.val) :
    (iblk m c 1 t : Vec Ideal S256x512 .f32) (ix2 k q) = yarr m c (ix2 s k) := by
  show V m c main_v0 (((cfg0.win 1).blk t).view.emb (ix2 k q)) = _
  rw [V_transposed]
  refine (congrArg (transpose S256x8192 [1, 0] (yarr m c) transposes_S8192x256_S256x8192_1_0)
    (funext fun a => Fin.ext ?_ : ((cfg0.win 1).blk t).view.emb (ix2 k q) = ix2 k s)).trans (transpose_ix2_apply _ _ k s)
  match a with
  | ⟨0, _⟩ => show win0_1.index t (0 : Fin 2) * 256 + 1 * k.val = k.val; omega
  | ⟨1, _⟩ => show win0_1.index t (1 : Fin 2) * 512 + 1 * q.val = s.val; omega

/-! ## What each point writes back, and the array after the run -/

/-- Point `t` writes back block `t` of the table of squared distances of the argument arrays. -/
theorem flushed_eq (c : Dev nD) (t : Fin cfg0.N) :
    (dats m 0 c).flushed 2 t = ((cfg0.win 2).blk t).view.read (Elt Ideal) (sqdist (xarr m c) (yarr m c)) := by
  rw [Value.flushed2]
  unfold out0_2
  rw [View.canon_unit_zero hz]
  simp only [View.ld_unit_zero (S := S4096x256) hz, View.ld_unit_zero (S := S256x512) hz]
  obtain ⟨e00, e01, e10, e11, hb0, hb1⟩ := idx_facts t
  funext j
  show k0_pay1 (F := Ideal) (iblk m c 0 t) (iblk m c 1 t) ((cfg0.win 2).xinj (grid0.coords t) j)
    = sqdist (xarr m c) (yarr m c) (((cfg0.win 2).blk t).view.emb j)
  refine block_entry (iblk m c 0 t) (iblk m c 1 t) (xarr m c) (yarr m c) (win0_2.index t (0 : Fin 2)) (win0_2.index t (1 : Fin 2))
    hb0 hb1 (fun p k => xblock_apply m c t p k _ (by show _ = _; rw [e00]) e01) (fun k q => yblock_apply m c t k q _ e10 (by show _ = _; rw [e11]))
    ((cfg0.win 2).xinj (grid0.coords t) j) (((cfg0.win 2).blk t).view.emb j) ?_ ?_
  · show win0_2.index t (0 : Fin 2) * 4096 + 1 * (j 0).val = win0_2.index t (0 : Fin 2) * 4096 + (j 0).val; omega
  · show win0_2.index t (1 : Fin 2) * 512 + 1 * (j 1).val = win0_2.index t (1 : Fin 2) * 512 + (j 1).val; omega

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v1).slice (win0_2.rect t)).set ↔ _
  rw [View.set_slice_whole, Rect.mem_set_unit]
  exact Iff.rfl

/-- Every index of the result lies in some point's block: entry (r, s) in block (r / 4096, s / 512). -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 4096, by omega⟩ ⟨(i 1).val / 512, by omega⟩
  have q0 : win0_2.index t (0 : Fin 2) = (i 0).val / 4096 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega

/-- The result array after the run is the table of squared distances of the argument arrays. -/
theorem final (c : Dev nD) : (dats m 0 c).arrAt 2 cfg0.N = sqdist (xarr m c) (yarr m c) :=
  (dats m 0 c).arrAt_eq_of_cover 2 (sqdist (xarr m c) (yarr m c)) (fun t _ => flushed_eq m c t) cover

/-- The kernel's run: the result array at the table, the arguments unchanged. -/
theorem run : θ_run defs (onTc (τ := τ) (main (F := Ideal))) ⟨m, fun _ => 0, ρ⟩ fun r => ∀ c : Dev nD,
      r.2.mem ((c : Thread nD τ).loc main_v1) = sqdist (xarr m c) (yarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Table

end
-- ==== Proof.RefValue.lean ====
/-
  The reference, read entry by entry: its last stage at (r, s) is the squared distance between row r of x and row s of y.
  Each stage of the host program reads one entry of its operands: the two row sums are read at r and at s (a sum started
  from the zero word is the plain sum), the two broadcasts carry them to (r, s), the contraction of the two matrices along
  their second axes is the inner product of the two rows, and the constant 2.0 multiplies it.
-/
import proofs.«170404_j68959994905236_1_alg».proof.Proof.Gen.ReferenceIdeal.Read
import proofs.«170404_j68959994905236_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The row sum of x that reaches entry (r, s) is read along row r. -/
theorem idx_rowx (r s : Fin 8192) (k : Fin 256) :
    idx_main_v1 (idx_main_v5 (idx_main_v7 (ix2 r s))) k = ix2 r k :=
  funext fun a => Fin.ext (by match a with | ⟨0, _⟩ => rfl | ⟨1, _⟩ => rfl)

/-- The row sum of y that reaches entry (r, s) is read along row s. -/
theorem idx_rowy (r s : Fin 8192) (k : Fin 256) :
    idx_main_v3 (idx_main_v6 (idx_main_v8 (ix2 r s))) k = ix2 s k :=
  funext fun a => Fin.ext (by match a with | ⟨0, _⟩ => rfl | ⟨1, _⟩ => rfl)

/-- The contraction at (r, s) reads x at (r, k) -/
theorem idx_dotx (r s : Fin 8192) (k : Fin 256) : lidx_main_v4 (ix2 r s) k = ix2 r k :=
  funext fun a => Fin.ext (by match a with | ⟨0, _⟩ => rfl | ⟨1, _⟩ => rfl)

/-- and y at (s, k). -/
theorem idx_doty (r s : Fin 8192) (k : Fin 256) : ridx_main_v4 (ix2 r s) k = ix2 s k :=
  funext fun a => Fin.ext (by match a with | ⟨0, _⟩ => rfl | ⟨1, _⟩ => rfl)

/-- The reference's result is the table of squared distances. -/
theorem reference_eq (x y : (⟨S8192x256, .f32⟩ : BufTy).Contents (Elt Ideal)) :
    val_main_v12 (F := Ideal) x y = Cert.SqDist.sqdist x y := by
  funext i
  obtain ⟨r, s, rfl⟩ : ∃ (r s : Fin 8192), i = ix2 r s := ⟨i 0, i 1, eq_ix2 i⟩
  rw [val_main_v12_apply, val_main_v9_apply, val_main_v11_apply, val_main_v7_apply, val_main_v8_apply,
    val_main_v5_apply, val_main_v6_apply, val_main_v1_apply, val_main_v3_apply, val_main_v10_apply, val_main_v4_apply]
  simp only [val_main_v0_apply, val_main_v2_apply, val_main_cst_apply, val_main_cst_0_apply, val_main_cst_1_apply,
    idx_rowx, idx_rowy, idx_dotx, idx_doty,
    Ideal.ofBits_def, Ideal.mulf_def, Ideal.addf_def, Ideal.subf_def, Ideal.ofBits_zero_f32, zero_add]
  rfl

end Cert.ReferenceIdeal.RefValue

end
-- ==== Proof.lean ====
/- Pairwise squared Euclidean distances: the kernel against its reference, over the extended reals.

   Both programs compute, for rows x_r of x and y_s of y (8192 rows of 256 columns each), the [8192, 8192] table
   |x_r|² + |y_s|² - 2 ⟨x_r, y_s⟩ with the same grouping: the two sums of squares are added first, and twice the inner product
   is subtracted from their sum. The reference takes the row sums of x * x and of y * y, contracts x with y along the columns,
   and combines the three after broadcasting. The kernel transposes y on the host, and at each of its 2 × 16 grid points
   computes one [4096, 512] block of the table from 4096 rows of x and 512 columns of the transposed y: row sums of the
   squared x block, column sums of the squared transposed block, and the blocks' matrix product accumulated from zero
   (its operands narrowed to a shorter float format first, which is the identity on the extended reals).
   Entry by entry the two are the same expression in the same three finite sums over the 256 columns
   (Spec.lean states it; RefValue.lean reads the reference's stages at an entry; Payload.lean reads the body's stored
   value at an entry; KernelValue.lean places the blocks in the array), so no law of the extended reals beyond 0 + a = a is
   used and the finiteness of the inputs is never opened. The three frames are the generated ones (the reference's is its
   generated run with the result dropped); the idealization rewrote nothing, so there is nothing to preserve. -/
import proofs.«170404_j68959994905236_1_alg».proof.Defs
import proofs.«170404_j68959994905236_1_alg».proof.Proof.Gen.Kernel
import proofs.«170404_j68959994905236_1_alg».proof.Proof.Gen.Kernel.Skeleton
import proofs.«170404_j68959994905236_1_alg».proof.Proof.Gen.Kernel.Launch
import proofs.«170404_j68959994905236_1_alg».proof.Proof.Gen.Kernel.Points
import proofs.«170404_j68959994905236_1_alg».proof.Proof.Gen.Kernel.Frame
import proofs.«170404_j68959994905236_1_alg».proof.Proof.Gen.KernelIdeal
import proofs.«170404_j68959994905236_1_alg».proof.Proof.Gen.KernelIdeal.Skeleton
import proofs.«170404_j68959994905236_1_alg».proof.Proof.Gen.KernelIdeal.Launch
import proofs.«170404_j68959994905236_1_alg».proof.Proof.Gen.KernelIdeal.Points
import proofs.«170404_j68959994905236_1_alg».proof.Proof.Gen.KernelIdeal.Frame
import proofs.«170404_j68959994905236_1_alg».proof.Proof.Gen.ReferenceIdeal
import proofs.«170404_j68959994905236_1_alg».proof.Proof.Gen.Pre_finite_inputs
import proofs.«170404_j68959994905236_1_alg».proof.Proof.Gen.KernelIdeal.Value
import proofs.«170404_j68959994905236_1_alg».proof.Proof.Gen.ReferenceIdeal.Run
import proofs.«170404_j68959994905236_1_alg».proof.Proof.Gen.ReferenceIdeal.Read
import proofs.«170404_j68959994905236_1_alg».proof.Proof.KernelValue
import proofs.«170404_j68959994905236_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and y, the kernel's result array and the reference's both end holding the table of
    squared distances of x and y. -/
theorem algebraic : Cert.algebraic_KernelIdeal_ReferenceIdeal := by
  intro m ρ m' ρ' _ hagree
  refine ⟨fun c => Cert.SqDist.sqdist (Cert.KernelIdeal.Table.xarr m c) (Cert.KernelIdeal.Table.yarr m c),
    Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
